-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S512x512 : Shape := ⟨2, ![512, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x512 .f32) (main_arg1 : IVec S65536 32) (main_arg2 : FVec F S512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg1 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  main_v12
-- ==== Kernel.lean ====
abbrev S65536x512 : Shape := ⟨2, ![65536, 512]⟩
abbrev S65536 : Shape := ⟨1, ![65536]⟩
abbrev S512x512 : Shape := ⟨2, ![512, 512]⟩
abbrev S_ : Shape := ⟨0, ![]⟩
abbrev S65536x1 : Shape := ⟨2, ![65536, 1]⟩
abbrev S16x128 : Shape := ⟨2, ![16, 128]⟩
abbrev S2048x512 : Shape := ⟨2, ![2048, 512]⟩
abbrev S2048x1 : Shape := ⟨2, ![2048, 1]⟩
abbrev S8x128 : Shape := ⟨2, ![8, 128]⟩
abbrev S1x512 : Shape := ⟨2, ![1, 512]⟩
abbrev S1x1 : Shape := ⟨2, ![1, 1]⟩
abbrev S512 : Shape := ⟨1, ![512]⟩
abbrev S2048 : Shape := ⟨1, ![2048]⟩
abbrev S1 : Shape := ⟨1, ![1]⟩
abbrev S512x1 : Shape := ⟨2, ![512, 1]⟩

abbrev nBuf : Space → Nat
  | .hbm => 21
  | .vmem => 10
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S512x512, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S512x512, .bf16⟩
  | .hbm, ⟨13, _⟩ => ⟨S16x128, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S512x512, .bf16⟩
  | .local _ .vmem, ⟨5, _⟩ => ⟨S8x128, .f32⟩
  | .local _ .vmem, ⟨6, _⟩ => ⟨S8x128, .f32⟩
  | .local _ .vmem, ⟨7, _⟩ => ⟨S512x512, .f32⟩
  | .local _ .vmem, ⟨8, _⟩ => ⟨S1x512, .f32⟩
  | .local _ .vmem, ⟨9, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S65536 : S_.BroadcastsInDim S65536 (![] : Fin 0 → Fin S65536.rank)
  shapeCasts_S65536_S65536x1 : S65536.ShapeCasts S65536x1
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  reduces_S2048x512_S512 : S2048x512.Reduces [0] S512
  shapeCasts_S512_S1x512 : S512.ShapeCasts S1x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  reduces_S512x512_S512 : S512x512.Reduces [1] S512
  shapeCasts_S512_S512x1 : S512.ShapeCasts S512x1
  reduces_S512x1_S1 : S512x1.Reduces [0] S1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S2048x512_S2048x512_S512x512_0_0_1_1_n_n_wf : DotDims.WF S2048x512 S2048x512 S512x512 [0] [0] [1] [1] [] []
  dot_S1x512_S512x1_S1x1_1_0_0_1_n_n_wf : DotDims.WF S1x512 S512x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S1x512_S512x1_S1x1_1_0_0_1_n_n : DotDims S1x512 S512x1 S1x1 where
  lhsContracting := [1]
  rhsContracting := [0]
  lhsNonContracting := [0]
  rhsNonContracting := [1]
  lhsBatch := []
  rhsBatch := []
  wf := dot_S1x512_S512x1_S1x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x512 : Shape := ⟨2, ![65536, 512]⟩
abbrev S65536 : Shape := ⟨1, ![65536]⟩
abbrev S512x512 : Shape := ⟨2, ![512, 512]⟩
abbrev S_ : Shape := ⟨0, ![]⟩
abbrev S65536x1 : Shape := ⟨2, ![65536, 1]⟩

abbrev nBuf : Space → Nat
  | .hbm => 16
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S512x512, .f32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x512_S_d0_1 : S65536x512.ReducesTo [0, 1] S_
  h_S_ : 0 < S_.numel
  gather_S512x512_S65536x1_S65536x512_1_0_n_n_0_1_1512_wf : GatherDims.WF S512x512 S65536x1 S65536x512 [1] [0] [] [0] [] 1 ![1, 512]

variable [Facts₀]

def gather_S512x512_S65536x1_S65536x512_1_0_n_n_0_1_1512 : GatherDims S512x512 S65536x1 S65536x512 where
  offsetDims := [1]
  collapsedSliceDims := [0]
  operandBatchingDims := []
  startIndicesBatchingDims := []
  startIndexMap := [0]
  indexVectorDim := 1
  sliceSizes := ![1, 512]
  wf := gather_S512x512_S65536x1_S65536x512_1_0_n_n_0_1_1512_wf

class Facts : Prop extends Facts₀ where

variable [Facts]
-- ==== Proof.Spec.lean ====
/-
  The mathematics both programs compute, stated once over the extended reals and over literal shapes.

  Inputs: x, 65536 rows of 512 features; one label per row, an integer word; centers, 512 rows of 512 features.
  The reference's loss is the sum over rows i and features d of (x i d - centers (label i) d)^2.
  The kernel never forms that difference. It cuts the rows into 32 chunks of 2048, gives chunks 0..15 to one core
  and 16..31 to the other, and per core accumulates three things over its chunks: the Gram-like matrix
  G a b = sum over rows of [label = a] * x row b, the class counts cnt a = sum over rows of [label = a], and the
  scalar s = sum over rows and features of x^2. A core's partial loss is then
  s - 2 * sum_{a b} G a b * centers a b + sum_a cnt a * sum_b (centers a b)^2, and the result is the two cores' sum.
  Expanding the square shows the two are the same number whenever every entry is a real.
-/
import Idealize.ShloMosaic.PureOps.Ideal
import Idealize.ShloMosaic.Lib.ValueIdx

noncomputable section

namespace Cert.CenterLoss

open Idealize.ShloMosaic Idealize.ShloMosaic.ValueIdx

/-- The whole feature array: 65536 rows of 512. -/
abbrev SX : Shape := ⟨2, ![65536, 512]⟩
/-- The labels as a column, one per row. -/
abbrev SL1 : Shape := ⟨2, ![65536, 1]⟩
/-- The centers, and the Gram-like accumulator: 512 classes by 512 features. -/
abbrev SC : Shape := ⟨2, ![512, 512]⟩
/-- One chunk of rows of the features. -/
abbrev SXb : Shape := ⟨2, ![2048, 512]⟩
/-- One chunk of rows of the label column. -/
abbrev SLb : Shape := ⟨2, ![2048, 1]⟩
/-- The class counts, kept as a row. -/
abbrev SCnt : Shape := ⟨2, ![1, 512]⟩
/-- The running sum of squares, kept as a one-by-one array. -/
abbrev SOne : Shape := ⟨2, ![1, 1]⟩

/-- The one-hot entry of a label word at class `a`: one where the word is `a`, zero elsewhere. -/
def hot (w : BitVec 32) (a : ℕ) : EReal := if w = BitVec.ofNat 32 a then 1 else 0

/-- What one chunk adds to G at (a, b) = (j 0, j 1): the sum over the chunk's rows of [label = a] * x row b. -/
def gAdd (x : SXb.Idx → EReal) (l : SLb.Idx → BitVec 32) (j : SC.Idx) : EReal :=
  ∑ r : Fin 2048, hot (l (ix2 r 0)) (j 0).val * x (ix2 r (j 1))

/-- What one chunk adds to the count of class a = j 1: the number of its rows labelled a. -/
def cAdd (l : SLb.Idx → BitVec 32) (j : SCnt.Idx) : EReal :=
  ∑ r : Fin 2048, hot (l (ix2 r 0)) (j 1).val

/-- What one chunk adds to the sum of squares: the sum over its rows and features of x^2. -/
def sAdd (x : SXb.Idx → EReal) : EReal :=
  ∑ r : Fin 2048, ∑ d : Fin 512, x (ix2 r d) * x (ix2 r d)

/-- A core's partial loss from its three accumulators: s - 2 * <G, centers> + sum_a cnt a * |centers a|^2.
    The factor two is kept as the float word the kernel spells (2.0). -/
def lossOf (C g : SC.Idx → EReal) (cnt : SCnt.Idx → EReal) (s : SOne.Idx → EReal) : EReal :=
  s (ix2 0 0) - Ideal.ofBits .f32 0x40000000#32 * (∑ a : Fin 512, ∑ b : Fin 512, g (ix2 a b) * C (ix2 a b))
    + ∑ a : Fin 512, cnt (ix2 0 a) * ∑ b : Fin 512, C (ix2 a b) * C (ix2 a b)

/-- Row `r` of chunk `n` as a row of the whole array: n * 2048 + r (reduced modulo the row count so that it is
    defined for every pair of naturals; for n < 32 and r < 2048 the reduction changes nothing). -/
def rowOf (n r : ℕ) : Fin 65536 := ⟨(n * 2048 + r) % 65536, Nat.mod_lt _ (by decide)⟩

/-- Chunk `n` of the features. -/
def xChunk (X : SX.Idx → EReal) (n : ℕ) : SXb.Idx → EReal := fun y => X (ix2 (rowOf n (y 0).val) (y 1))

/-- Chunk `n` of the label column. -/
def lChunk (L1 : SL1.Idx → BitVec 32) (n : ℕ) : SLb.Idx → BitVec 32 := fun y => L1 (ix2 (rowOf n (y 0).val) 0)

/-- Core `c`'s G after its sixteen chunks 16 c .. 16 c + 15. -/
def gCore (X : SX.Idx → EReal) (L1 : SL1.Idx → BitVec 32) (c : ℕ) : SC.Idx → EReal :=
  fun j => ∑ s : Fin 16, gAdd (xChunk X (16 * c + s.val)) (lChunk L1 (16 * c + s.val)) j

/-- Core `c`'s class counts after its sixteen chunks. -/
def cCore (L1 : SL1.Idx → BitVec 32) (c : ℕ) : SCnt.Idx → EReal :=
  fun j => ∑ s : Fin 16, cAdd (lChunk L1 (16 * c + s.val)) j

/-- Core `c`'s sum of squares after its sixteen chunks. -/
def sCore (X : SX.Idx → EReal) (c : ℕ) : SOne.Idx → EReal :=
  fun _ => ∑ s : Fin 16, sAdd (xChunk X (16 * c + s.val))

/-- Core `c`'s partial loss. -/
def coreLoss (X : SX.Idx → EReal) (L1 : SL1.Idx → BitVec 32) (C : SC.Idx → EReal) (c : ℕ) : EReal :=
  lossOf C (gCore X L1 c) (cCore L1 c) (sCore X c)

/-- The kernel's result: the two cores' partial losses added. -/
def kernelLoss (X : SX.Idx → EReal) (L1 : SL1.Idx → BitVec 32) (C : SC.Idx → EReal) : EReal :=
  coreLoss X L1 C 0 + coreLoss X L1 C 1

/-- The reference's result for a row-to-class map `ℓ`: the sum over rows and features of (x - its center)^2. -/
def refLoss (X : SX.Idx → EReal) (C : SC.Idx → EReal) (ℓ : Fin 65536 → Fin 512) : EReal :=
  ∑ i : Fin 65536, ∑ d : Fin 512, (X (ix2 i d) - C (ix2 (ℓ i) d)) * (X (ix2 i d) - C (ix2 (ℓ i) d))

/-- The class a label word selects: its signed value, with negatives sent to 0 and values above 511 to 511. -/
def labelOf (w : BitVec 32) : Fin 512 := ⟨min w.toInt.toNat 511, by omega⟩

end Cert.CenterLoss

end
-- ==== Proof.Labels.lean ====
/-
  Label words. For a label word whose signed value is not negative, the kernel's clamp into [0, 511] and the
  reference's index (the word itself, since it is not negative, then clamped into the table as a gather clamps it)
  name the same class: the word's value, capped at 511.
-/
import proofs.«416194_j48979807044131_3_alg».proof.Proof.Spec
import Idealize.ShloMosaic.PureOps

noncomputable section

namespace Cert.CenterLoss

open Idealize.ShloMosaic

/-- A word whose signed value is not negative has that signed value equal to its unsigned value. -/
private theorem toInt_eq_toNat_of_nonneg (w : BitVec 32) (h : 0 ≤ w.toInt) : w.toInt = (w.toNat : Int) := by
  have hlt := w.isLt
  rw [BitVec.toInt_eq_toNat_cond] at h ⊢
  split
  · rfl
  · rename_i hc
    rw [if_neg hc] at h
    omega

/-- A word whose signed value is not negative is not below zero in the signed order. -/
private theorem slt_zero_of_nonneg (w : BitVec 32) (h : 0 ≤ w.toInt) : w.slt 0#32 = false := by
  simp only [BitVec.slt, BitVec.toInt_zero, decide_eq_false_iff_not, not_lt]
  exact h

/-- The kernel's clamp min(511, max(0, w)) of a non-negative label word is the word of its class. -/
theorem clip_eq (w : BitVec 32) (h : 0 ≤ w.toInt) :
    IntOp.minsi 511#32 (IntOp.maxsi 0#32 w) = BitVec.ofNat 32 (labelOf w).val := by
  have hn := toInt_eq_toNat_of_nonneg w h
  have hmax : IntOp.maxsi 0#32 w = w := by
    simp only [IntOp.maxsi, slt_zero_of_nonneg w h]
    rfl
  rw [hmax]
  have h511 : (511#32).toInt = 511 := by decide
  simp only [IntOp.minsi, BitVec.slt, h511, labelOf]
  by_cases hc : (511 : Int) < w.toInt
  · rw [if_pos (by simpa using hc)]
    have : min w.toInt.toNat 511 = 511 := by omega
    rw [this]
  · rw [if_neg (by simpa using hc)]
    have : min w.toInt.toNat 511 = w.toNat := by omega
    rw [this]
    simp

/-- The reference's start index (w + 512 where w < 0, else w), read signed and capped at 511, of a non-negative
    label word is its class. -/
theorem wrap_eq (w : BitVec 32) (h : 0 ≤ w.toInt) :
    min (Scalar.select (IntOp.cmpi .slt w 0#32) (IntOp.addi w 512#32) w).toInt.toNat 511 = (labelOf w).val := by
  have hsel : Scalar.select (IntOp.cmpi .slt w 0#32) (IntOp.addi w 512#32) w = w := by
    simp only [IntOp.cmpi, slt_zero_of_nonneg w h, Scalar.select]
    rw [if_neg (by decide)]
  rw [hsel]
  rfl

end Cert.CenterLoss

end
-- ==== Proof.Pre.lean ====
/-
  What the precondition says. Its one bit is the conjunction of three tests: every feature has absolute value below
  +infinity, every center has, and every label word is at least zero as a signed integer. So every feature and every
  center is a real number, and no label is negative.
-/
import proofs.«416194_j48979807044131_3_alg».proof.Pre_finite_inputs
import proofs.«416194_j48979807044131_3_alg».proof.Proof.Gen.Pre_finite_inputs
import proofs.«416194_j48979807044131_3_alg».proof.Proof.Spec
import Idealize.ShloMosaic.Lib.ReduceAll
import Idealize.ShloMosaic.Lib.ValueIdx

noncomputable section

namespace Cert.CenterLoss

open Idealize.ShloMosaic Idealize.ShloMosaic.ValueIdx

/-- A shape of rank zero has exactly one index. -/
private theorem subsingleton_scalar : Subsingleton Cert.Pre_finite_inputs.S_.Idx := ⟨fun a b => funext fun d => d.elim0⟩

/-- The float word 0x7F800000 denotes +infinity. -/
private theorem ofBits_inf : Ideal.ofBits .f32 0x7F800000#32 = ⊤ := by simp [Ideal.ofBits, Ideal.ieee]

/-- An extended real whose absolute value max(x, -x) is strictly below +infinity is neither infinity. -/
private theorem ne_of_abs_lt_top (x : EReal)
    (hx : Ideal.cmp .olt (max x (-x)) (Ideal.ofBits .f32 0x7F800000#32) = 1#1) : x ≠ ⊤ ∧ x ≠ ⊥ := by
  rw [ofBits_inf] at hx
  unfold Ideal.cmp at hx
  have hlt : max x (-x) < ⊤ := by
    by_contra hc
    simp [hc] at hx
  rw [max_lt_iff] at hlt
  refine ⟨fun e => ?_, fun e => ?_⟩
  · subst e; exact absurd hlt.1 (lt_irrefl _)
  · subst e; exact absurd hlt.2 (by simp)

/-- A family of extended reals none of which is an infinity is a family of reals: each member is the
    extended real of its real part. -/
private theorem exists_real {ι : Type} (f : ι → EReal) (hf : ∀ i, f i ≠ ⊤ ∧ f i ≠ ⊥) :
    ∃ g : ι → ℝ, f = fun i => ((g i : ℝ) : EReal) :=
  ⟨fun i => (f i).toReal, funext fun i => (EReal.coe_toReal (hf i).1 (hf i).2).symm⟩

/-- The precondition's bit being one gives its three conjuncts, and each conjunct, a conjunction over all
    entries, gives its test at every entry: every feature and every center is a real, every label is at least
    zero as a signed integer. -/
theorem of_pre (X : FVec Ideal Cert.Pre_finite_inputs.S65536x512 .f32) (L : IVec Cert.Pre_finite_inputs.S65536 32)
    (C : FVec Ideal Cert.Pre_finite_inputs.S512x512 .f32)
    (h : Cert.Pre_finite_inputs.fn (F := Ideal) X L C = fun _ => 1#1) :
    (∃ x : SX.Idx → ℝ, X = fun i => ((x i : ℝ) : EReal))
      ∧ (∃ cc : SC.Idx → ℝ, C = fun i => ((cc i : ℝ) : EReal))
      ∧ ∀ i : Fin 65536, 0 ≤ (L (ix1 i)).toInt := by
  haveI := subsingleton_scalar
  have h0 := congrFun h ValueIdx.ix0
  dsimp only [Cert.Pre_finite_inputs.fn] at h0
  -- the bit is (features finite and centers finite) and labels non-negative
  obtain ⟨h12, h3⟩ := IntOp.andi_eq_one.1 h0
  obtain ⟨h1, h2⟩ := IntOp.andi_eq_one.1 h12
  refine ⟨?_, ?_, ?_⟩
  · -- every feature: |x| < +infinity
    refine exists_real X fun i => ne_of_abs_lt_top (X i) ?_
    exact Host.reduce_andi_all _ _ _ _ _ h1 i
  · -- every center: |c| < +infinity
    refine exists_real C fun i => ne_of_abs_lt_top (C i) ?_
    exact Host.reduce_andi_all _ _ _ _ _ h2 i
  · -- every label: the signed compare with the zero word
    intro i
    have hi : IntOp.cmpi .sge (L (ix1 i)) 0#32 = 1#1 := Host.reduce_andi_all _ _ _ _ _ h3 (ix1 i)
    rw [IntOp.cmpi_sge] at hi
    exact hi

end Cert.CenterLoss

end
-- ==== Proof.Ref.lean ====
/-
  The reference's result. Its run ends with the sum, over every row and feature, of (x - gathered center)^2 added to
  a zero start; the gathered center of row i is the centers' row at the label's class, so for labels that are not
  negative the result is the loss over the class map "label, capped at 511".
-/
import proofs.«416194_j48979807044131_3_alg».proof.Proof.Gen.ReferenceIdeal.Run
import proofs.«416194_j48979807044131_3_alg».proof.Proof.Gen.ReferenceIdeal.Read
import proofs.«416194_j48979807044131_3_alg».proof.Proof.Spec
import proofs.«416194_j48979807044131_3_alg».proof.Proof.Labels
import Idealize.ShloMosaic.Lib.ValueIdx
import Idealize.ShloMosaic.PureOps.Ideal.Laws

noncomputable section

namespace Cert.CenterLoss.RefSide

open Idealize.ShloMosaic Idealize.ShloMosaic.ValueIdx Cert.ReferenceIdeal Cert.CenterLoss

/-- The gather read at (i, k): the operand's row at the start index of row i, read signed and capped so that the
    one-row slice fits (into [0, 511]), at feature k. On the operand's axis 0 (collapsed, named by the start index
    map) the coordinate is the capped start index alone; on axis 1 (an offset axis, not in the map) it is the
    result's coordinate on its offset axis alone. -/
theorem gather_row {α : Type} (C : S512x512.Idx → α) (idx : IVec S65536x1 32) (i : Fin 65536) (k : Fin 512) :
    Host.gather gather_S512x512_S65536x1_S65536x512_1_0_n_n_0_1_1512 C idx (ix2 i k)
      = C (ix2 ⟨min (idx (ix2 i 0)).toInt.toNat 511, by omega⟩ k) := by
  unfold Host.gather
  congr 1
  funext a
  refine Fin.ext ?_
  show gather_S512x512_S65536x1_S65536x512_1_0_n_n_0_1_1512.start (ix2 i k) idx a
      + gather_S512x512_S65536x1_S65536x512_1_0_n_n_0_1_1512.batchCoord (ix2 i k) a
      + gather_S512x512_S65536x1_S65536x512_1_0_n_n_0_1_1512.offCoord (ix2 i k) a = _
  rw [GatherDims.batchCoord_eq_zero _ _ _ List.not_mem_nil]
  match a with
  | ⟨0, h0⟩ =>
    have hm : (⟨0, h0⟩ : Fin S512x512.rank) ∈ gather_S512x512_S65536x1_S65536x512_1_0_n_n_0_1_1512.startIndexMap :=
      List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hm]
    have hsi : gather_S512x512_S65536x1_S65536x512_1_0_n_n_0_1_1512.siIdx (ix2 i k)
        ⟨List.idxOf (⟨0, h0⟩ : Fin S512x512.rank) gather_S512x512_S65536x1_S65536x512_1_0_n_n_0_1_1512.startIndexMap,
          List.idxOf_lt_length_iff.2 hm⟩ = ix2 i 0 := by
      funext b; refine Fin.ext ?_
      match b with
      | ⟨0, _⟩ => rfl
      | ⟨1, _⟩ => rfl
    rw [hsi]
    rfl
  | ⟨1, h1⟩ =>
    have hn : (⟨1, h1⟩ : Fin S512x512.rank) ∉ gather_S512x512_S65536x1_S65536x512_1_0_n_n_0_1_1512.startIndexMap :=
      fun h => Nat.one_ne_zero (congrArg Fin.val (List.mem_singleton.mp h))
    have hk : (⟨1, h1⟩ : Fin S512x512.rank) ∈ gather_S512x512_S65536x1_S65536x512_1_0_n_n_0_1_1512.sKept :=
      (GatherDims.mem_sKept _ _).mpr
        ⟨fun h => Nat.one_ne_zero (congrArg Fin.val (List.mem_singleton.mp h)), List.not_mem_nil⟩
    unfold GatherDims.start GatherDims.offCoord
    rw [dif_neg hn, dif_pos hk]
    simp only [Nat.zero_add]
    rfl

/-- The broadcast along a new trailing axis reads its operand at the row's coordinate. -/
theorem idx_v5_row (i : Fin 65536) : Read.idx_main_v5 (ix2 i 0) = ix1 i := by
  funext a
  match a with
  | ⟨0, _⟩ => rfl

/-- The start index of row i: the label word, with 512 added where it is negative. -/
theorem start_row (L : (⟨S65536, .i32⟩ : BufTy).Contents (Elt Ideal)) (i : Fin 65536) :
    Read.val_main_v5 (F := Ideal) L (ix2 i 0)
      = Scalar.select (IntOp.cmpi .slt (L (ix1 i)) 0#32) (IntOp.addi (L (ix1 i)) 512#32) (L (ix1 i)) := by
  rw [Read.val_main_v5_apply, idx_v5_row, Read.val_main_v4_apply, Read.val_main_v1_apply, Read.val_main_v3_apply,
    Read.val_main_v0_apply, Read.val_main_c_apply, Read.val_main_v2_apply, Read.val_main_c_0_apply]

/-- The gathered center of row i at feature d, for a label that is not negative: the centers' row of its class. -/
theorem center_row (L : (⟨S65536, .i32⟩ : BufTy).Contents (Elt Ideal)) (C : (⟨S512x512, .f32⟩ : BufTy).Contents (Elt Ideal))
    (i : Fin 65536) (d : Fin 512) (h : 0 ≤ (L (ix1 i)).toInt) :
    Read.val_main_v6 (F := Ideal) L C (ix2 i d) = C (ix2 (labelOf (L (ix1 i))) d) := by
  unfold Read.val_main_v6
  rw [gather_row]
  have hrow : (⟨min (Read.val_main_v5 (F := Ideal) L (ix2 i 0)).toInt.toNat 511, by omega⟩ : Fin 512)
      = labelOf (L (ix1 i)) := by
    refine Fin.ext ?_
    show min (Read.val_main_v5 (F := Ideal) L (ix2 i 0)).toInt.toNat 511 = (labelOf (L (ix1 i))).val
    rw [start_row]
    exact wrap_eq _ h
  rw [hrow]

theorem ref_value (X : (⟨S65536x512, .f32⟩ : BufTy).Contents (Elt Ideal)) (L : (⟨S65536, .i32⟩ : BufTy).Contents (Elt Ideal))
    (C : (⟨S512x512, .f32⟩ : BufTy).Contents (Elt Ideal)) (hL : ∀ i : Fin 65536, 0 ≤ (L (ix1 i)).toInt) :
    Cert.ReferenceIdeal.Read.val_main_v9 (F := Ideal) X L C = fun _ => refLoss X C (fun i => labelOf (L (ix1 i))) := by
  funext j
  rw [Read.val_main_v9_apply, Read.val_main_cst_apply, Ideal.ofBits_def, Ideal.ofBits_zero_f32, zero_add, sum_idx2]
  unfold refLoss
  refine Finset.sum_congr rfl fun i _ => Finset.sum_congr rfl fun d _ => ?_
  rw [Read.val_main_v8_apply, Read.val_main_v7_apply, Ideal.mulf_def, Ideal.subf_def, center_row L C i d (hL i)]

end Cert.CenterLoss.RefSide

end
-- ==== Proof.Expand.lean ====
/-
  Expanding the square. For real features x i d, real centers cc a d and a class map ℓ from rows to classes,
  the sum over rows and features of (x i d - cc (ℓ i) d)^2 is the sum of x^2, minus twice the pairing of the
  class-wise sums G a b = sum_i [ℓ i = a] x i b with the centers, plus the centers' squared norms weighted by the class counts.
-/
import Mathlib.Algebra.BigOperators.Group.Finset.Sigma
import Mathlib.Algebra.BigOperators.Ring.Finset
import Mathlib.Data.Real.Basic
import Mathlib.Tactic.Ring

namespace Cert.CenterLoss

open Finset

namespace Expand

/-- The pairing of the class-wise sums with the centers is the sum over rows of each row paired with its own
    center: write the product as a triple sum over (a, b, i) of [ℓ i = a] * x i b * cc a b, bring the sum over
    classes innermost, and let the indicator keep the single class a = ℓ i. -/
theorem pair_collapse {ι κ δ : Type*} [Fintype ι] [Fintype κ] [Fintype δ] [DecidableEq κ]
    (x : ι → δ → ℝ) (cc : κ → δ → ℝ) (ℓ : ι → κ) :
    ∑ a, ∑ b, (∑ i, (if ℓ i = a then (1 : ℝ) else 0) * x i b) * cc a b
      = ∑ i, ∑ b, x i b * cc (ℓ i) b := by
  have h1 : ∀ a b, (∑ i, (if ℓ i = a then (1 : ℝ) else 0) * x i b) * cc a b
      = ∑ i, (if ℓ i = a then x i b * cc a b else 0) := by
    intro a b
    rw [Finset.sum_mul]
    refine Finset.sum_congr rfl fun i _ => ?_
    split_ifs <;> ring
  calc ∑ a, ∑ b, (∑ i, (if ℓ i = a then (1 : ℝ) else 0) * x i b) * cc a b
      = ∑ a, ∑ b, ∑ i, (if ℓ i = a then x i b * cc a b else 0) :=
        Finset.sum_congr rfl fun a _ => Finset.sum_congr rfl fun b _ => h1 a b
    _ = ∑ a, ∑ i, ∑ b, (if ℓ i = a then x i b * cc a b else 0) :=
        Finset.sum_congr rfl fun a _ => Finset.sum_comm
    _ = ∑ i, ∑ a, ∑ b, (if ℓ i = a then x i b * cc a b else 0) := Finset.sum_comm
    _ = ∑ i, ∑ b, ∑ a, (if ℓ i = a then x i b * cc a b else 0) :=
        Finset.sum_congr rfl fun i _ => Finset.sum_comm
    _ = ∑ i, ∑ b, x i b * cc (ℓ i) b := by
        refine Finset.sum_congr rfl fun i _ => Finset.sum_congr rfl fun b _ => ?_
        rw [Finset.sum_ite_eq]
        simp

/-- A class function weighted by the class counts sums to the function read at each row's class: the count is
    a sum of indicators over rows, so swap the two sums and let the indicator keep the class a = ℓ i. -/
theorem count_collapse {ι κ : Type*} [Fintype ι] [Fintype κ] [DecidableEq κ]
    (N : κ → ℝ) (ℓ : ι → κ) :
    ∑ a, (∑ i, if ℓ i = a then (1 : ℝ) else 0) * N a = ∑ i, N (ℓ i) := by
  have h1 : ∀ a, (∑ i, if ℓ i = a then (1 : ℝ) else 0) * N a
      = ∑ i, (if ℓ i = a then N a else 0) := by
    intro a
    rw [Finset.sum_mul]
    refine Finset.sum_congr rfl fun i _ => ?_
    split_ifs <;> ring
  calc ∑ a, (∑ i, if ℓ i = a then (1 : ℝ) else 0) * N a
      = ∑ a, ∑ i, (if ℓ i = a then N a else 0) := Finset.sum_congr rfl fun a _ => h1 a
    _ = ∑ i, ∑ a, (if ℓ i = a then N a else 0) := Finset.sum_comm
    _ = ∑ i, N (ℓ i) := by
        refine Finset.sum_congr rfl fun i _ => ?_
        rw [Finset.sum_ite_eq]
        simp

end Expand

theorem sq_dist_expand {ι κ δ : Type*} [Fintype ι] [Fintype κ] [Fintype δ] [DecidableEq κ]
    (x : ι → δ → ℝ) (cc : κ → δ → ℝ) (ℓ : ι → κ) :
    ∑ i, ∑ d, (x i d - cc (ℓ i) d) * (x i d - cc (ℓ i) d)
      = (∑ i, ∑ d, x i d * x i d)
        - 2 * (∑ a, ∑ b, (∑ i, (if ℓ i = a then (1 : ℝ) else 0) * x i b) * cc a b)
        + ∑ a, (∑ i, if ℓ i = a then (1 : ℝ) else 0) * ∑ b, cc a b * cc a b := by
  -- both collapsed forms are sums over rows; then (u - v)^2 = u^2 - 2 u v + v^2 termwise
  rw [Expand.pair_collapse x cc ℓ, Expand.count_collapse (fun a => ∑ b, cc a b * cc a b) ℓ]
  rw [Finset.mul_sum, ← Finset.sum_sub_distrib, ← Finset.sum_add_distrib]
  refine Finset.sum_congr rfl fun i _ => ?_
  rw [Finset.mul_sum, ← Finset.sum_sub_distrib, ← Finset.sum_add_distrib]
  refine Finset.sum_congr rfl fun d _ => ?_
  ring

end Cert.CenterLoss
-- ==== Proof.Bridge.lean ====
/-
  The kernel's number is the reference's number. With every feature and every center a real, and the kernel's label
  column holding, at row i, the word of the class ℓ i, the two cores' partial losses add up to the sum over all rows
  and features of (x - its center)^2: per core this is the expanded square over that core's 16 chunks of 2048 rows,
  and the 2 * 16 * 2048 rows are all 65536 rows, each once.
-/
import proofs.«416194_j48979807044131_3_alg».proof.Proof.Spec
import proofs.«416194_j48979807044131_3_alg».proof.Proof.Expand

noncomputable section

namespace Cert.CenterLoss

open Idealize.ShloMosaic Idealize.ShloMosaic.ValueIdx

/-! ## Reals inside the extended reals -/

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- The float word 0x40000000 denotes the real number two. -/
theorem two_word : Ideal.ofBits .f32 0x40000000#32 = ((2 : ℝ) : EReal) := by
  simp [Ideal.ofBits, Ideal.ieee, -EReal.coe_mul]; norm_num

/-- The one-hot entry of the word of class k at class a is the real indicator of k = a: two classes below 512
    have the same 32-bit word only if they are the same class. -/
theorem hot_ofNat (k a : Fin 512) :
    hot (BitVec.ofNat 32 k.val) a.val = (((if k = a then (1 : ℝ) else 0) : ℝ) : EReal) := by
  unfold hot
  have h : (BitVec.ofNat 32 k.val = BitVec.ofNat 32 a.val) ↔ k = a := by
    constructor
    · intro e
      have e' := congrArg BitVec.toNat e
      simp only [BitVec.toNat_ofNat] at e'
      apply Fin.ext
      have hk := k.isLt
      have ha := a.isLt
      omega
    · intro e; rw [e]
  by_cases hka : k = a
  · rw [if_pos (h.mpr hka), if_pos hka]; simp
  · rw [if_neg (fun e => hka (h.mp e)), if_neg hka]; simp

/-! ## One core's three accumulators as coerced reals -/

/-- Core c's G at (a, b): the sum over its chunks s and their rows r of [class of the row = a] * x row b. -/
theorem gCore_coe (x : SX.Idx → ℝ) (L1 : SL1.Idx → BitVec 32) (ℓ : Fin 65536 → Fin 512)
    (hL : ∀ i : Fin 65536, L1 (ix2 i 0) = BitVec.ofNat 32 (ℓ i).val) (c : ℕ) (a b : Fin 512) :
    gCore (fun i => ((x i : ℝ) : EReal)) L1 c (ix2 a b)
      = ((∑ s : Fin 16, ∑ r : Fin 2048,
          (if ℓ (rowOf (16 * c + s.val) r.val) = a then (1 : ℝ) else 0)
            * x (ix2 (rowOf (16 * c + s.val) r.val) b) : ℝ) : EReal) := by
  unfold gCore gAdd xChunk lChunk
  simp only [coe_sum, EReal.coe_mul]
  refine Finset.sum_congr rfl fun s _ => Finset.sum_congr rfl fun r _ => ?_
  show hot (L1 (ix2 (rowOf (16 * c + s.val) r.val) 0)) a.val
      * ((x (ix2 (rowOf (16 * c + s.val) r.val) b) : ℝ) : EReal) = _
  rw [hL, hot_ofNat]

/-- Core c's count of class a: the number of its rows whose class is a. -/
theorem cCore_coe (L1 : SL1.Idx → BitVec 32) (ℓ : Fin 65536 → Fin 512)
    (hL : ∀ i : Fin 65536, L1 (ix2 i 0) = BitVec.ofNat 32 (ℓ i).val) (c : ℕ) (a : Fin 512) :
    cCore L1 c (ix2 0 a)
      = ((∑ s : Fin 16, ∑ r : Fin 2048,
          (if ℓ (rowOf (16 * c + s.val) r.val) = a then (1 : ℝ) else 0) : ℝ) : EReal) := by
  unfold cCore cAdd lChunk
  simp only [coe_sum]
  refine Finset.sum_congr rfl fun s _ => Finset.sum_congr rfl fun r _ => ?_
  show hot (L1 (ix2 (rowOf (16 * c + s.val) r.val) 0)) a.val = _
  rw [hL, hot_ofNat]

/-- Core c's sum of squares: the sum over its rows and the features of x^2. -/
theorem sCore_coe (x : SX.Idx → ℝ) (c : ℕ) :
    sCore (fun i => ((x i : ℝ) : EReal)) c (ix2 0 0)
      = ((∑ s : Fin 16, ∑ r : Fin 2048, ∑ d : Fin 512,
          x (ix2 (rowOf (16 * c + s.val) r.val) d) * x (ix2 (rowOf (16 * c + s.val) r.val) d) : ℝ) : EReal) := by
  unfold sCore sAdd xChunk
  simp only [coe_sum, EReal.coe_mul]

/-! ## One core's partial loss -/

/-- Core c's partial loss is the coerced sum, over its rows and the features, of (x - its center)^2:
    the three accumulators are the three terms of the expanded square. -/
theorem coreLoss_coe (x : SX.Idx → ℝ) (cc : SC.Idx → ℝ) (L1 : SL1.Idx → BitVec 32) (ℓ : Fin 65536 → Fin 512)
    (hL : ∀ i : Fin 65536, L1 (ix2 i 0) = BitVec.ofNat 32 (ℓ i).val) (c : ℕ) :
    coreLoss (fun i => ((x i : ℝ) : EReal)) L1 (fun i => ((cc i : ℝ) : EReal)) c
      = ((∑ s : Fin 16, ∑ r : Fin 2048, ∑ d : Fin 512,
          (x (ix2 (rowOf (16 * c + s.val) r.val) d) - cc (ix2 (ℓ (rowOf (16 * c + s.val) r.val)) d))
            * (x (ix2 (rowOf (16 * c + s.val) r.val) d) - cc (ix2 (ℓ (rowOf (16 * c + s.val) r.val)) d)) : ℝ)
          : EReal) := by
  unfold coreLoss lossOf
  simp only [gCore_coe x L1 ℓ hL, cCore_coe L1 ℓ hL, sCore_coe, two_word]
  simp only [← EReal.coe_mul, ← coe_sum, ← EReal.coe_sub, ← EReal.coe_add]
  have h := sq_dist_expand (ι := Fin 16 × Fin 2048) (κ := Fin 512) (δ := Fin 512)
    (fun p d => x (ix2 (rowOf (16 * c + p.1.val) p.2.val) d)) (fun a b => cc (ix2 a b))
    (fun p => ℓ (rowOf (16 * c + p.1.val) p.2.val))
  simp only [Fintype.sum_prod_type] at h
  rw [h]

/-! ## The two cores' rows are all the rows -/

/-- Core c, chunk s, row r is row c * 32768 + s * 2048 + r of the whole array, and every row is one such triple. -/
def rowEquiv : (Fin 2 × Fin 16 × Fin 2048) ≃ Fin 65536 where
  toFun p := ⟨p.1.val * 32768 + p.2.1.val * 2048 + p.2.2.val, by
    have h1 := p.1.isLt
    have h2 := p.2.1.isLt
    have h3 := p.2.2.isLt
    omega⟩
  invFun i := (⟨i.val / 32768, by have := i.isLt; omega⟩, ⟨i.val / 2048 % 16, by omega⟩, ⟨i.val % 2048, by omega⟩)
  left_inv := by
    rintro ⟨⟨c, hc⟩, ⟨s, hs⟩, ⟨r, hr⟩⟩
    simp only [Prod.mk.injEq, Fin.mk.injEq]
    refine ⟨?_, ?_, ?_⟩ <;> omega
  right_inv := by
    rintro ⟨i, hi⟩
    simp only [Fin.mk.injEq]
    omega

/-- Row r of chunk 16 c + s, for a core c below 2, is the row the triple (c, s, r) names. -/
theorem rowOf_eq (c : ℕ) (hc : c < 2) (s : Fin 16) (r : Fin 2048) :
    rowOf (16 * c + s.val) r.val = rowEquiv (⟨c, hc⟩, s, r) := by
  apply Fin.ext
  have hs := s.isLt
  have hr := r.isLt
  show (((16 * c + s.val) * 2048 + r.val) % 65536) = c * 32768 + s.val * 2048 + r.val
  omega

/-- A sum over all 65536 rows is the sum over core 0's rows plus the sum over core 1's rows. -/
theorem sum_rows (f : Fin 65536 → ℝ) :
    ∑ i, f i = (∑ s : Fin 16, ∑ r : Fin 2048, f (rowOf (16 * 0 + s.val) r.val))
      + ∑ s : Fin 16, ∑ r : Fin 2048, f (rowOf (16 * 1 + s.val) r.val) := by
  rw [← Equiv.sum_comp rowEquiv f, Fintype.sum_prod_type, Fin.sum_univ_two]
  simp only [Fintype.sum_prod_type]
  refine congrArg₂ (· + ·) ?_ ?_
  · refine Finset.sum_congr rfl fun s _ => Finset.sum_congr rfl fun r _ => ?_
    exact congrArg f (rowOf_eq 0 (by omega) s r).symm
  · refine Finset.sum_congr rfl fun s _ => Finset.sum_congr rfl fun r _ => ?_
    exact congrArg f (rowOf_eq 1 (by omega) s r).symm

/-! ## The statement -/

theorem kernelLoss_eq_refLoss (x : SX.Idx → ℝ) (cc : SC.Idx → ℝ) (L1 : SL1.Idx → BitVec 32) (ℓ : Fin 65536 → Fin 512)
    (hL : ∀ i : Fin 65536, L1 (ix2 i 0) = BitVec.ofNat 32 (ℓ i).val) :
    kernelLoss (fun i => ((x i : ℝ) : EReal)) L1 (fun i => ((cc i : ℝ) : EReal))
      = refLoss (fun i => ((x i : ℝ) : EReal)) (fun i => ((cc i : ℝ) : EReal)) ℓ := by
  unfold kernelLoss refLoss
  rw [coreLoss_coe x cc L1 ℓ hL 0, coreLoss_coe x cc L1 ℓ hL 1]
  simp only [← EReal.coe_sub, ← EReal.coe_mul, ← coe_sum, ← EReal.coe_add]
  rw [sum_rows (fun i => ∑ d : Fin 512, (x (ix2 i d) - cc (ix2 (ℓ i) d)) * (x (ix2 i d) - cc (ix2 (ℓ i) d)))]

end Cert.CenterLoss

end
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.Blocks.lean ====
/-
  What the kernel's windows read. The grid has 32 points; point t reads rows 2048 t .. 2048 t + 2047 of the features and
  of the label column, and the whole centers array. Before the region the host clamps every label into [0, 511] and
  lays the labels out as a column, and changes the centers' float format, which at the ideal values changes nothing.
-/
import proofs.«416194_j48979807044131_3_alg».proof.Proof.Gen.KernelIdeal.Frame
import proofs.«416194_j48979807044131_3_alg».proof.Proof.Spec
import proofs.«416194_j48979807044131_3_alg».proof.Proof.LibTypedRef
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

namespace Cert.CenterLoss.Blocks

open Idealize.ShloMosaic Idealize.ShloMosaic.TcCoe Idealize.SL.Sem Idealize.ShloMosaic.ValueIdx
open Idealize.ShloMosaic.Pipeline (Dat)
open Cert.KernelIdeal Cert.KernelIdeal.Gen Cert.CenterLoss

variable (m : (ℓ : Loc nD τ sig) → Buf (Elt Ideal) ℓ)

/-- The features as the region finds them. -/
abbrev Xarr (c : Dev nD) : S65536x512.Idx → EReal := V m c main_arg0
/-- The label column as the region finds it. -/
abbrev Larr (c : Dev nD) : S65536x1.Idx → BitVec 32 := V m c main_v1
/-- The centers as the region finds them. -/
abbrev Carr (c : Dev nD) : S512x512.Idx → EReal := V m c main_v2

/-- The grid has 32 points. -/
theorem N32 : cfg0.N = 32 := N_0

/-- Where each input window's block sits at point t: block row t of the features and of the label column, the one
    block of the centers. -/
theorem idx_facts : ∀ t : Fin cfg0.N, win0_0.index t 0 = t.val ∧ win0_0.index t 1 = 0 ∧ win0_1.index t 0 = t.val
    ∧ win0_1.index t 1 = 0 ∧ win0_2.index t 0 = 0 ∧ win0_2.index t 1 = 0 :=
  (by decide +kernel : ∀ t : Fin grid0.N, _)

/-- The features' block at point t is chunk t of the features. -/
theorem xblk_eq (c : Dev nD) (t : Fin cfg0.N) :
    (iblk m c 0 t : S2048x512.Idx → EReal) = xChunk (Xarr m c) t.val := by
  have ht : t.val < 32 := lt_of_lt_of_eq t.isLt N32
  funext y
  have h0 : (y 0).val < 2048 := (y 0).isLt
  unfold iblk xChunk
  rw [View.read_apply]
  show V m c main_arg0 _ = V m c main_arg0 _
  congr 1
  funext a
  apply Fin.ext
  match a with
  | ⟨0, _⟩ =>
    show win0_0.index t 0 * 2048 + 1 * (y 0).val = (t.val * 2048 + (y 0).val) % 65536
    rw [(idx_facts t).1]; omega
  | ⟨1, _⟩ =>
    show win0_0.index t 1 * 512 + 1 * (y 1).val = (y 1).val
    rw [(idx_facts t).2.1]; omega

/-- The label column's block at point t is chunk t of the label column. -/
theorem lblk_eq (c : Dev nD) (t : Fin cfg0.N) :
    (iblk m c 1 t : S2048x1.Idx → BitVec 32) = lChunk (Larr m c) t.val := by
  have ht : t.val < 32 := lt_of_lt_of_eq t.isLt N32
  funext y
  have h0 : (y 0).val < 2048 := (y 0).isLt
  have h1 : (y 1).val < 1 := (y 1).isLt
  unfold iblk lChunk
  rw [View.read_apply]
  show V m c main_v1 _ = V m c main_v1 _
  congr 1
  funext a
  apply Fin.ext
  match a with
  | ⟨0, _⟩ =>
    show win0_1.index t 0 * 2048 + 1 * (y 0).val = (t.val * 2048 + (y 0).val) % 65536
    rw [(idx_facts t).2.2.1]; omega
  | ⟨1, _⟩ =>
    show win0_1.index t 1 * 1 + 1 * (y 1).val = 0
    rw [(idx_facts t).2.2.2.1]; omega

/-- The centers' block at every point is the whole centers array. -/
theorem cblk_eq (c : Dev nD) (t : Fin cfg0.N) :
    (iblk m c 2 t : S512x512.Idx → EReal) = Carr m c := by
  funext y
  unfold iblk
  rw [View.read_apply]
  show V m c main_v2 _ = V m c main_v2 _
  congr 1
  funext a
  apply Fin.ext
  match a with
  | ⟨0, _⟩ =>
    show win0_2.index t 0 * 512 + 1 * (y 0).val = (y 0).val
    rw [(idx_facts t).2.2.2.2.1]; omega
  | ⟨1, _⟩ =>
    show win0_2.index t 1 * 512 + 1 * (y 1).val = (y 1).val
    rw [(idx_facts t).2.2.2.2.2]; omega

/-- The features are an argument: the host lines before the region do not write them. -/
theorem Xarr_eq (c : Dev nD) : Xarr m c = m ((c : Thread nD τ).loc main_arg0) := V_main_arg0 m c

/-- The label column is the labels, each clamped into [0, 511], laid out as a column. -/
theorem Larr_eq (c : Dev nD) : Larr m c =
    shapeCast S65536x1 (minsi (broadcastInDim S65536 ![] Facts₀.bcast_S_S65536 (constantI S_ 32 511#32))
      (maxsi (broadcastInDim S65536 ![] Facts₀.bcast_S_S65536 (constantI S_ 32 0#32))
        (m ((c : Thread nD τ).loc main_arg1) : S65536.Idx → BitVec 32))) Facts₀.shapeCasts_S65536_S65536x1 := by
  show V m c main_v1 = _
  dsimp only [V, V0]
  simp only [hostOps0, hostOps0_1, hostOps0_2, List.flatten_cons, List.flatten_nil, List.append_nil, List.cons_append,
    List.nil_append]
  after_results
  simp only [StableHlo.TRef.ofBuf_toBuf]
  rfl

/-- Row i of the label column: the clamp of label i. -/
theorem Larr_apply (c : Dev nD) (i : Fin 65536) :
    Larr m c (ix2 i 0) = IntOp.minsi 511#32 (IntOp.maxsi 0#32 ((m ((c : Thread nD τ).loc main_arg1) : S65536.Idx → BitVec 32) (ix1 i))) := by
  rw [Larr_eq]
  rw [shapeCast_apply _ _ (ix2 i (0 : Fin 1)) (ix1 i) (by rw [Shape.rowMajor_val_one, Shape.rowMajor_val_two]; simp)]
  rfl

/-- The centers' change of float format is the identity at the ideal values. -/
theorem Carr_eq (c : Dev nD) : Carr m c = m ((c : Thread nD τ).loc main_arg2) := by
  show V m c main_v2 = _
  dsimp only [V, V0]
  simp only [hostOps0, hostOps0_1, hostOps0_2, List.flatten_cons, List.flatten_nil, List.append_nil, List.cons_append,
    List.nil_append]
  after_results
  rfl

end Cert.CenterLoss.Blocks

end
-- ==== Proof.Pieces.lean ====
/-
  What one run of the kernel body leaves in its three carried accumulators and, at a core's last chunk, in the output
  block, as pure functions of what it loaded. Each accumulator is stored whole, so what it holds afterwards is the
  payload of its last store; a load of an accumulator after a store in the same run reads that store's payload.
  First chunk of a core: reset to zero, then add the chunk. Later chunks: add the chunk to what was there.
  Last chunk: also form the partial loss from the three new totals and the centers.
-/
import proofs.«416194_j48979807044131_3_alg».proof.Proof.Gen.KernelIdeal.Frame
import Idealize.ShloMosaic.Lib.Pipeline.Value
import Idealize.ShloMosaic.Lib.Tactic

set_option maxRecDepth 16384

noncomputable section

namespace Cert.CenterLoss.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

variable (c : Dev nD) (i : grid0.Coords)
  (arg2 : Memref sig .tc .vmem S2048x512 .f32) (harg2 : arg2.IsWhole) (arg3 : Memref sig .tc .vmem S2048x1 .i32) (harg3 : arg3.IsWhole)
  (arg4 : Memref sig .tc .vmem S512x512 .bf16) (harg4 : arg4.IsWhole) (arg5 : Memref sig .tc .vmem S8x128 .f32) (harg5 : arg5.IsWhole)
  (arg6 : Memref sig .tc .vmem S512x512 .f32) (harg6 : arg6.IsWhole) (arg7 : Memref sig .tc .vmem S1x512 .f32) (harg7 : arg7.IsWhole)
  (arg8 : Memref sig .tc .vmem S1x1 .f32) (harg8 : arg8.IsWhole)
  (x0 : Vec F S2048x512 .f32) (x1 : Vec F S2048x1 .i32) (x2 : Vec F S512x512 .bf16)
  (xs0 : Vec F S512x512 .f32) (xs1 : Vec F S1x512 .f32) (xs2 : Vec F S1x1 .f32)

/-- The offset of every store and load of the body: the origin of its buffer. -/
theorem hz : (![0, 0] : Fin 2 → Nat) = fun _ => 0 := by
  funext a; fin_cases a <;> rfl

/-! ## The first chunk of a core: every accumulator is reset to zero, then the chunk is added -/

theorem first_G (hc0 : cond0_0 i) (hc1 : ¬cond0_1 i) :
    sout0_A_0 c i arg2 harg2 arg3 harg3 arg4 harg4 arg5 harg5 arg6 harg6 arg7 harg7 arg8 harg8 hc0 hc1 x0 x1 x2 = k0_pay7 x0 x1 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x512) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

theorem first_cnt (hc0 : cond0_0 i) (hc1 : ¬cond0_1 i) :
    sout0_A_1 c i arg2 harg2 arg3 harg3 arg4 harg4 arg5 harg5 arg6 harg6 arg7 harg7 arg8 harg8 hc0 hc1 x0 x1 x2 = k0_pay8 x1 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x512) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

theorem first_sq (hc0 : cond0_0 i) (hc1 : ¬cond0_1 i) :
    sout0_A_2 c i arg2 harg2 arg3 harg3 arg4 harg4 arg5 harg5 arg6 harg6 arg7 harg7 arg8 harg8 hc0 hc1 x0 x1 x2 = k0_pay1 (k0_pay9 x0 k0_pay5) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

/-! ## A middle chunk: the chunk is added to what the chunk before left -/

theorem mid_G (hc0 : ¬cond0_0 i) (hc1 : ¬cond0_1 i) :
    sout0_B_0 c i arg2 harg2 arg3 harg3 arg4 harg4 arg5 harg5 arg6 harg6 arg7 harg7 arg8 harg8 hc0 hc1 x0 x1 x2 xs0 xs1 xs2 = k0_pay7 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S512x512) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

theorem mid_cnt (hc0 : ¬cond0_0 i) (hc1 : ¬cond0_1 i) :
    sout0_B_1 c i arg2 harg2 arg3 harg3 arg4 harg4 arg5 harg5 arg6 harg6 arg7 harg7 arg8 harg8 hc0 hc1 x0 x1 x2 xs0 xs1 xs2 = k0_pay8 x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1x512) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

theorem mid_sq (hc0 : ¬cond0_0 i) (hc1 : ¬cond0_1 i) :
    sout0_B_2 c i arg2 harg2 arg3 harg3 arg4 harg4 arg5 harg5 arg6 harg6 arg7 harg7 arg8 harg8 hc0 hc1 x0 x1 x2 xs0 xs1 xs2 = k0_pay1 (k0_pay9 x0 xs2) := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1x1) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

/-! ## The last chunk of a core: the chunk is added, and the core's partial loss is formed from the three totals -/

theorem last_G (hc0 : ¬cond0_0 i) (hc1 : cond0_1 i) :
    sout0_C_0 c i arg2 harg2 arg3 harg3 arg4 harg4 arg5 harg5 arg6 harg6 arg7 harg7 arg8 harg8 hc0 hc1 x0 x1 x2 xs0 xs1 xs2 = k0_pay7 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S512x512) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

theorem last_cnt (hc0 : ¬cond0_0 i) (hc1 : cond0_1 i) :
    sout0_C_1 c i arg2 harg2 arg3 harg3 arg4 harg4 arg5 harg5 arg6 harg6 arg7 harg7 arg8 harg8 hc0 hc1 x0 x1 x2 xs0 xs1 xs2 = k0_pay8 x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1x512) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

theorem last_sq (hc0 : ¬cond0_0 i) (hc1 : cond0_1 i) :
    sout0_C_2 c i arg2 harg2 arg3 harg3 arg4 harg4 arg5 harg5 arg6 harg6 arg7 harg7 arg8 harg8 hc0 hc1 x0 x1 x2 xs0 xs1 xs2 = k0_pay1 (k0_pay9 x0 xs2) := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1x1) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

theorem last_out (hc0 : ¬cond0_0 i) (hc1 : cond0_1 i) :
    out0_C_3 c i arg2 harg2 arg3 harg3 arg4 harg4 arg5 harg5 arg6 harg6 arg7 harg7 arg8 harg8 hc0 hc1 x0 x1 x2 xs0 xs1 xs2 = k0_pay2 x2 (k0_pay7 x0 x1 xs0) (k0_pay8 x1 xs1) (k0_pay1 (k0_pay9 x0 xs2)) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S8x128) hz]
  simp only [View.readAt_eq_ld, harg2.read_unread, harg3.read_unread, harg4.read_unread, harg5.read_unread, harg6.read_unread,
    harg7.read_unread, harg8.read_unread, View.ld_unit_zero (S := S2048x512) hz, View.ld_unit_zero (S := S2048x1) hz,
    View.ld_unit_zero (S := S512x512) hz, View.ld_unit_zero (S := S1x512) hz, View.ld_unit_zero (S := S1x1) hz,
    View.readCov_unit_zero (S := S512x512) _ hz, View.readCov_unit_zero (S := S1x512) _ hz, View.readCov_unit_zero (S := S1x1) _ hz]

end Cert.CenterLoss.Pieces

end
-- ==== Proof.Payload.lean ====
/-
  The kernel body's arithmetic, read at the ideal values. Each store's value is one pure function of the body's loads:
  the accumulate steps add one chunk's contribution to what the scratch held, the resets are zero, and the final store
  broadcasts the core's partial loss.
-/
import proofs.«416194_j48979807044131_3_alg».proof.Proof.Gen.KernelIdeal.Skeleton
import proofs.«416194_j48979807044131_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.CenterLoss.Payload

open Idealize.ShloMosaic Idealize.ShloMosaic.ValueIdx Cert.KernelIdeal Cert.KernelIdeal.Gen Cert.CenterLoss

/-! ## Layout operations at an index: a column kept as a trailing unit axis -/

section Layout
variable {α : Type}

/-- A vector of length a cast to a column [a, 1] reads, at (i, u), the vector at i: both row-major positions are i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b columns reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-by-one array broadcast to any matrix reads its one entry everywhere. -/
theorem broadcastTo_11_ab_apply {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

end Layout

/-! ## A sum over one axis of a matrix, read at an index -/

section Sums
variable {φ : FTy}

/-- The sum over the rows of an m-by-n matrix, at column a: the sum over k below m of the entry (k, a). -/
theorem sumAxis0_apply {m n : ℕ} (v : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ)
    (a : Fin n) :
    multiReduction (F := Ideal) .add [0] ⟨1, ![n]⟩ v acc h hφ hacc (ix1 a) = ∑ k : Fin m, v (ix2 k a) := by
  refine (Ideal.multiReduction_add_single v acc h hφ hacc (ix1 a)).trans ?_
  refine Finset.sum_congr rfl fun k _ => congrArg v ?_
  funext d
  refine Fin.ext ?_
  match d with
  | ⟨0, _⟩ => rfl
  | ⟨1, _⟩ => rfl

/-- The sum over the columns of an m-by-n matrix, at row a: the sum over k below n of the entry (a, k). -/
theorem sumAxis1_apply {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (a : Fin m) :
    multiReduction (F := Ideal) .add [1] ⟨1, ![m]⟩ v acc h hφ hacc (ix1 a) = ∑ k : Fin n, v (ix2 a k) := by
  refine (Ideal.multiReduction_add_single v acc h hφ hacc (ix1 a)).trans ?_
  refine Finset.sum_congr rfl fun k _ => congrArg v ?_
  funext d
  refine Fin.ext ?_
  match d with
  | ⟨0, _⟩ => rfl
  | ⟨1, _⟩ => rfl

end Sums

/-! ## The one-hot entry -/

/-- A compare bit widened to a word and converted signed is one where the two words are equal and zero elsewhere. -/
theorem sitofp_cmpi_eq (w v : BitVec 32) :
    (FloatOps.sitofp (F := Ideal) .f32 ((IntOp.cmpi .eq w v).setWidth 32) : EReal) = if w = v then 1 else 0 := by
  show (((((IntOp.cmpi .eq w v).setWidth 32).toInt : ℤ) : ℝ) : EReal) = _
  by_cases h : w = v
  · have hb : IntOp.cmpi .eq w v = 1#1 := by simp [IntOp.cmpi, h]
    have h1 : ((1#1 : BitVec 1).setWidth 32).toInt = 1 := by decide
    rw [if_pos h, hb, h1]
    simp
  · have hne : (w == v) = false := beq_eq_false_iff_ne.mpr h
    have hb : IntOp.cmpi .eq w v = 0#1 := by simp [IntOp.cmpi, hne]
    have h0 : ((0#1 : BitVec 1).setWidth 32).toInt = 0 := by decide
    rw [if_neg h, hb, h0]
    simp

/-- The one-hot matrix of a chunk's labels at (r, a): one where row r's label word is a, zero elsewhere. -/
theorem pay6_apply (l : Vec Ideal S2048x1 .i32) (r : Fin 2048) (a : Fin 512) :
    k0_pay6 (F := Ideal) l (ix2 r a) = hot (l (ix2 r 0)) a.val := by
  unfold k0_pay6 hot
  rw [sitofp_apply, extui_apply]
  show FloatOps.sitofp (F := Ideal) .f32 ((IntOp.cmpi .eq
      (broadcastTo S2048x512 (shapeCast S2048x1 l shapeCasts_S2048x1_S2048x1) broadcasts_S2048x1_S2048x512 (ix2 r a))
      (iota .tc S2048x512 32 [1] iota_S2048x512_d1_w32 (ix2 r a))).setWidth 32) = _
  rw [broadcastTo_a1_ab_apply, shapeCast_self, iota_single_apply]
  exact sitofp_cmpi_eq _ _

/-! ## The two products -/

/-- The G product contracts the row axis of both operands; on the left operand that axis reads the contraction position … -/
theorem lhsG_0 (j : S512x512.Idx) (k : dot_S2048x512_S2048x512_S512x512_0_0_1_1_n_n.contr.Idx) :
    (dot_S2048x512_S2048x512_S512x512_0_0_1_1_n_n.lhsIdx j k 0).val
      = (k ⟨0, by rw [DotDims.rank_contr]; exact Nat.one_pos⟩).val :=
  DotDims.lhsIdx_val_of_single _ rfl j k
/-- … and its column axis reads the result's row. -/
theorem lhsG_1 (j : S512x512.Idx) (k : dot_S2048x512_S2048x512_S512x512_0_0_1_1_n_n.contr.Idx) :
    (dot_S2048x512_S2048x512_S512x512_0_0_1_1_n_n.lhsIdx j k 1).val = (j 0).val := by
  unfold DotDims.lhsIdx
  rw [dif_neg (show ¬ (1 : Fin S2048x512.rank) ∈ dot_S2048x512_S2048x512_S512x512_0_0_1_1_n_n.lhsBatch by decide),
    dif_pos (show (1 : Fin S2048x512.rank) ∈ dot_S2048x512_S2048x512_S512x512_0_0_1_1_n_n.lhsNonContracting by decide)]
  rfl
/-- On the right operand the row axis reads the contraction position … -/
theorem rhsG_0 (j : S512x512.Idx) (k : dot_S2048x512_S2048x512_S512x512_0_0_1_1_n_n.contr.Idx) :
    (dot_S2048x512_S2048x512_S512x512_0_0_1_1_n_n.rhsIdx j k 0).val
      = (k ⟨0, by rw [DotDims.rank_contr]; exact Nat.one_pos⟩).val :=
  DotDims.rhsIdx_val_of_single _ rfl j k
/-- … and its column axis reads the result's column. -/
theorem rhsG_1 (j : S512x512.Idx) (k : dot_S2048x512_S2048x512_S512x512_0_0_1_1_n_n.contr.Idx) :
    (dot_S2048x512_S2048x512_S512x512_0_0_1_1_n_n.rhsIdx j k 1).val = (j 1).val := by
  unfold DotDims.rhsIdx
  rw [dif_neg (show ¬ (1 : Fin S2048x512.rank) ∈ dot_S2048x512_S2048x512_S512x512_0_0_1_1_n_n.rhsBatch by decide),
    dif_pos (show (1 : Fin S2048x512.rank) ∈ dot_S2048x512_S2048x512_S512x512_0_0_1_1_n_n.rhsNonContracting by decide)]
  rfl

/-- The G product at (a, b): the sum over the chunk's rows r of left (r, a) times right (r, b). -/
theorem matmulG_apply (lhs rhs : FVec Ideal S2048x512 .bf16) (a b : Fin 512) :
    matmul dot_S2048x512_S2048x512_S512x512_0_0_1_1_n_n none lhs rhs (constant (F := Ideal) S512x512 .f32 0x00000000#32) (ix2 a b)
      = ∑ r : Fin 2048, lhs (ix2 r a) * rhs (ix2 r b) := by
  refine (Ideal.matmul_constant_zero_apply dot_S2048x512_S2048x512_S512x512_0_0_1_1_n_n none lhs rhs (ix2 a b)).trans ?_
  rw [← Equiv.sum_comp (contrEquiv1 dot_S2048x512_S2048x512_S512x512_0_0_1_1_n_n 2048 rfl rfl).symm]
  refine Finset.sum_congr rfl fun r _ => ?_
  have hl : dot_S2048x512_S2048x512_S512x512_0_0_1_1_n_n.lhsIdx (ix2 a b)
      ((contrEquiv1 dot_S2048x512_S2048x512_S512x512_0_0_1_1_n_n 2048 rfl rfl).symm r) = ix2 r a := by
    funext d
    refine Fin.ext ?_
    match d with
    | ⟨0, _⟩ => exact (lhsG_0 _ _).trans (contrEquiv1_symm_val dot_S2048x512_S2048x512_S512x512_0_0_1_1_n_n 2048 rfl rfl r)
    | ⟨1, _⟩ => exact lhsG_1 _ _
  have hr : dot_S2048x512_S2048x512_S512x512_0_0_1_1_n_n.rhsIdx (ix2 a b)
      ((contrEquiv1 dot_S2048x512_S2048x512_S512x512_0_0_1_1_n_n 2048 rfl rfl).symm r) = ix2 r b := by
    funext d
    refine Fin.ext ?_
    match d with
    | ⟨0, _⟩ => exact (rhsG_0 _ _).trans (contrEquiv1_symm_val dot_S2048x512_S2048x512_S512x512_0_0_1_1_n_n 2048 rfl rfl r)
    | ⟨1, _⟩ => exact rhsG_1 _ _
  rw [hl, hr]

/-- The count-weighted product contracts the row's columns against the column's rows; on the left operand the row axis reads the result's row … -/
theorem lhsC_0 (j : S1x1.Idx) (k : dot_S1x512_S512x1_S1x1_1_0_0_1_n_n.contr.Idx) :
    (dot_S1x512_S512x1_S1x1_1_0_0_1_n_n.lhsIdx j k 0).val = (j 0).val := by
  unfold DotDims.lhsIdx
  rw [dif_neg (show ¬ (0 : Fin S1x512.rank) ∈ dot_S1x512_S512x1_S1x1_1_0_0_1_n_n.lhsBatch by decide),
    dif_pos (show (0 : Fin S1x512.rank) ∈ dot_S1x512_S512x1_S1x1_1_0_0_1_n_n.lhsNonContracting by decide)]
  rfl
/-- … and its column axis reads the contraction position. -/
theorem lhsC_1 (j : S1x1.Idx) (k : dot_S1x512_S512x1_S1x1_1_0_0_1_n_n.contr.Idx) :
    (dot_S1x512_S512x1_S1x1_1_0_0_1_n_n.lhsIdx j k 1).val
      = (k ⟨0, by rw [DotDims.rank_contr]; exact Nat.one_pos⟩).val :=
  DotDims.lhsIdx_val_of_single _ rfl j k
/-- On the right operand the row axis reads the contraction position … -/
theorem rhsC_0 (j : S1x1.Idx) (k : dot_S1x512_S512x1_S1x1_1_0_0_1_n_n.contr.Idx) :
    (dot_S1x512_S512x1_S1x1_1_0_0_1_n_n.rhsIdx j k 0).val
      = (k ⟨0, by rw [DotDims.rank_contr]; exact Nat.one_pos⟩).val :=
  DotDims.rhsIdx_val_of_single _ rfl j k
/-- … and its column axis reads the result's column. -/
theorem rhsC_1 (j : S1x1.Idx) (k : dot_S1x512_S512x1_S1x1_1_0_0_1_n_n.contr.Idx) :
    (dot_S1x512_S512x1_S1x1_1_0_0_1_n_n.rhsIdx j k 1).val = (j 1).val := by
  unfold DotDims.rhsIdx
  rw [dif_neg (show ¬ (1 : Fin S512x1.rank) ∈ dot_S1x512_S512x1_S1x1_1_0_0_1_n_n.rhsBatch by decide),
    dif_pos (show (1 : Fin S512x1.rank) ∈ dot_S1x512_S512x1_S1x1_1_0_0_1_n_n.rhsNonContracting by decide)]
  rfl

/-- The count-weighted product at its one cell: the sum over classes k of the row at k times the column at k. -/
theorem matmulC_apply (lhs : FVec Ideal S1x512 .f32) (rhs : FVec Ideal S512x1 .f32) (u v : Fin 1) :
    matmul dot_S1x512_S512x1_S1x1_1_0_0_1_n_n none lhs rhs (constant (F := Ideal) S1x1 .f32 0x00000000#32) (ix2 u v)
      = ∑ k : Fin 512, lhs (ix2 u k) * rhs (ix2 k v) := by
  refine (Ideal.matmul_constant_zero_apply dot_S1x512_S512x1_S1x1_1_0_0_1_n_n none lhs rhs (ix2 u v)).trans ?_
  rw [← Equiv.sum_comp (contrEquiv1 dot_S1x512_S512x1_S1x1_1_0_0_1_n_n 512 rfl rfl).symm]
  refine Finset.sum_congr rfl fun r _ => ?_
  have hl : dot_S1x512_S512x1_S1x1_1_0_0_1_n_n.lhsIdx (ix2 u v)
      ((contrEquiv1 dot_S1x512_S512x1_S1x1_1_0_0_1_n_n 512 rfl rfl).symm r) = ix2 u r := by
    funext d
    refine Fin.ext ?_
    match d with
    | ⟨0, _⟩ => exact lhsC_0 _ _
    | ⟨1, _⟩ => exact (lhsC_1 _ _).trans (contrEquiv1_symm_val dot_S1x512_S512x1_S1x1_1_0_0_1_n_n 512 rfl rfl r)
  have hr : dot_S1x512_S512x1_S1x1_1_0_0_1_n_n.rhsIdx (ix2 u v)
      ((contrEquiv1 dot_S1x512_S512x1_S1x1_1_0_0_1_n_n 512 rfl rfl).symm r) = ix2 r v := by
    funext d
    refine Fin.ext ?_
    match d with
    | ⟨0, _⟩ => exact (rhsC_0 _ _).trans (contrEquiv1_symm_val dot_S1x512_S512x1_S1x1_1_0_0_1_n_n 512 rfl rfl r)
    | ⟨1, _⟩ => exact rhsC_1 _ _
  rw [hl, hr]

/-! ## The seven payloads -/

/-- The reset of G is zero everywhere. -/
theorem pay3_eq : (k0_pay3 (F := Ideal)) = fun _ => (0 : EReal) := by
  funext j
  show shapeCast S512x512 (broadcast S512x512 (FloatOps.ofBits (F := Ideal) .f32 0x00000000#32)) shapeCasts_S512x512_S512x512 j = 0
  rw [shapeCast_self]
  exact Ideal.ofBits_zero_f32
/-- The reset of the counts is zero everywhere. -/
theorem pay4_eq : (k0_pay4 (F := Ideal)) = fun _ => (0 : EReal) := by
  funext j
  show shapeCast S1x512 (broadcast S1x512 (FloatOps.ofBits (F := Ideal) .f32 0x00000000#32)) shapeCasts_S1x512_S1x512 j = 0
  rw [shapeCast_self]
  exact Ideal.ofBits_zero_f32
/-- The reset of the sum of squares is zero. -/
theorem pay5_eq : (k0_pay5 (F := Ideal)) = fun _ => (0 : EReal) := by
  funext j
  show shapeCast S1x1 (broadcast S1x1 (FloatOps.ofBits (F := Ideal) .f32 0x00000000#32)) shapeCasts_S1x1_S1x1 j = 0
  rw [shapeCast_self]
  exact Ideal.ofBits_zero_f32

/-- The G step: what the scratch held plus the chunk's one-hot-transposed product with its features. -/
theorem pay7_eq (x : Vec Ideal S2048x512 .f32) (l : Vec Ideal S2048x1 .i32) (g : Vec Ideal S512x512 .f32) :
    k0_pay7 (F := Ideal) x l g = fun j => g j + gAdd x l j := by
  funext j
  obtain ⟨a, b, rfl⟩ : ∃ (a : Fin 512) (b : Fin 512), j = ix2 a b := ⟨j 0, j 1, eq_ix2 j⟩
  unfold k0_pay7 gAdd
  rw [shapeCast_self, addf_apply, matmulG_apply]
  refine congrArg (g (ix2 a b) + ·) (Finset.sum_congr rfl fun r _ => ?_)
  rw [truncf_apply, truncf_apply, pay6_apply]

/-- The count step: what the scratch held plus the chunk's column sums of the one-hot matrix. -/
theorem pay8_eq (l : Vec Ideal S2048x1 .i32) (cnt : Vec Ideal S1x512 .f32) :
    k0_pay8 (F := Ideal) l cnt = fun j => cnt j + cAdd l j := by
  funext j
  obtain ⟨u, a, rfl⟩ : ∃ (u : Fin 1) (a : Fin 512), j = ix2 u a := ⟨j 0, j 1, eq_ix2 j⟩
  unfold k0_pay8 cAdd
  rw [shapeCast_self, addf_apply, shapeCast_a_1a_apply]
  refine congrArg (cnt (ix2 u a) + ·) ((sumAxis0_apply _ _ _ _ _ a).trans (Finset.sum_congr rfl fun r _ => ?_))
  exact pay6_apply l r a

/-- The sum-of-squares step: what the scratch held plus the chunk's sum of squares. -/
theorem pay19_eq (x : Vec Ideal S2048x512 .f32) (s : Vec Ideal S1x1 .f32) :
    k0_pay1 (F := Ideal) (k0_pay9 (F := Ideal) x s) = fun j => s j + sAdd x := by
  funext j
  obtain ⟨u, v, rfl⟩ : ∃ (u : Fin 1) (v : Fin 1), j = ix2 u v := ⟨j 0, j 1, eq_ix2 j⟩
  unfold k0_pay1 k0_pay9 sAdd
  rw [shapeCast_self, addf_apply, shapeCast_a_1a_apply]
  refine congrArg (s (ix2 u v) + ·) ((sumAxis0_apply _ _ _ _ _ v).trans (Finset.sum_congr rfl fun r _ => ?_))
  rw [shapeCast_a_a1_apply]
  exact sumAxis1_apply _ _ _ _ _ r

/-- The final store: the core's partial loss from its three accumulators and the centers, at every cell of the block. -/
theorem pay2_eq (Cb : Vec Ideal S512x512 .bf16) (g : Vec Ideal S512x512 .f32) (cnt : Vec Ideal S1x512 .f32) (s : Vec Ideal S1x1 .f32) :
    k0_pay2 (F := Ideal) Cb g cnt s = fun _ => lossOf Cb g cnt s := by
  funext j
  unfold k0_pay2 lossOf
  rw [broadcastTo_11_ab_apply, shapeCast_self, addf_apply, subf_apply, mulf_apply, broadcast_apply,
    shapeCast_a_1a_apply]
  refine congrArg₂ (fun p q => s (ix2 0 0) - Ideal.ofBits .f32 0x40000000#32 * p + q) ?_ ?_
  · refine (sumAxis0_apply _ _ _ _ _ _).trans (Finset.sum_congr rfl fun a _ => ?_)
    rw [shapeCast_a_a1_apply]
    refine (sumAxis1_apply _ _ _ _ _ a).trans (Finset.sum_congr rfl fun b _ => ?_)
    rw [mulf_apply, extf_apply, shapeCast_self]
  · refine (matmulC_apply _ _ 0 0).trans (Finset.sum_congr rfl fun a _ => ?_)
    rw [shapeCast_a_a1_apply]
    refine congrArg (cnt (ix2 0 a) * ·) ((sumAxis1_apply _ _ _ _ _ a).trans (Finset.sum_congr rfl fun b _ => ?_))
    rw [mulf_apply, extf_apply, shapeCast_self]

end Cert.CenterLoss.Payload

end
-- ==== Proof.Invariant.lean ====
/-
  The three accumulators after each grid point. Point t = 16 q + j is core q's chunk j. At j = 0 the accumulators are
  reset and chunk t is added; at every later j chunk t is added to what point t - 1 left. So after point t they hold
  the sums, over chunks 16 q .. 16 q + j, of the chunks' contributions; at j = 15 these are the core's totals, and the
  block written back there holds the core's partial loss at every cell.
-/
import proofs.«416194_j48979807044131_3_alg».proof.Proof.Gen.KernelIdeal.Frame
import proofs.«416194_j48979807044131_3_alg».proof.Proof.Spec
import proofs.«416194_j48979807044131_3_alg».proof.Proof.Pieces
import proofs.«416194_j48979807044131_3_alg».proof.Proof.Payload
import proofs.«416194_j48979807044131_3_alg».proof.Proof.Blocks

set_option maxRecDepth 16384

noncomputable section

namespace Cert.CenterLoss.Invariant

open Idealize.ShloMosaic Idealize.ShloMosaic.TcCoe Idealize.SL.Sem Idealize.ShloMosaic.ValueIdx
open Cert.KernelIdeal Cert.KernelIdeal.Gen Cert.CenterLoss

variable (m : (ℓ : Loc nD τ sig) → Buf (Elt Ideal) ℓ)

/-- The three accumulators: G, the class counts, the sum of squares. -/
abbrev St : Type := (S512x512.Idx → EReal) × (S1x512.Idx → EReal) × (S1x1.Idx → EReal)

/-- A state with one chunk's contributions added. -/
def addChunk (x : S2048x512.Idx → EReal) (l : S2048x1.Idx → BitVec 32) (st : St) : St :=
  (fun y => st.1 y + gAdd x l y, fun y => st.2.1 y + cAdd l y, fun y => st.2.2 y + sAdd x)

/-- The reset state. -/
def zeroSt : St := (fun _ => 0, fun _ => 0, fun _ => 0)

/-- A core's first chunk: reset, then the chunk added. -/
theorem acc_first (c : Dev nD) (t : Fin cfg0.N) (h0 : t.val % 16 = 0) :
    (outsAt0 m c t.val t.isLt).2 = addChunk (iblk m c 0 t) (iblk m c 1 t) zeroSt := by
  have h1 : ¬t.val % 16 = 15 := by omega
  rw [outsAt0_A m c t h0 h1]
  dsimp only
  refine (congrArg₂ Prod.mk
    (Pieces.first_G (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) _ _)
    (congrArg₂ Prod.mk
      (Pieces.first_cnt (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) _ _)
      (Pieces.first_sq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) _ _))).trans ?_
  rw [Payload.pay7_eq, Payload.pay8_eq, Payload.pay19_eq, Payload.pay3_eq, Payload.pay4_eq, Payload.pay5_eq]
  rfl

/-- A later chunk: the chunk added to what the point before left. -/
theorem acc_next (c : Dev nD) (t : Fin cfg0.N) (h0 : ¬t.val % 16 = 0) :
    (outsAt0 m c t.val t.isLt).2 = addChunk (iblk m c 0 t) (iblk m c 1 t) (outsAt0 m c (t.val - 1) (Nat.lt_of_le_of_lt (Nat.sub_le _ _) t.isLt)).2 := by
  by_cases h1 : t.val % 16 = 15
  · rw [outsAt0_C m c t h0 h1]
    dsimp only
    refine (congrArg₂ Prod.mk
      (Pieces.last_G (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _)
      (congrArg₂ Prod.mk
        (Pieces.last_cnt (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _)
        (Pieces.last_sq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _))).trans ?_
    rw [Payload.pay7_eq, Payload.pay8_eq, Payload.pay19_eq]
    rfl
  · rw [outsAt0_B m c t h0 h1]
    dsimp only
    refine (congrArg₂ Prod.mk
      (Pieces.mid_G (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _)
      (congrArg₂ Prod.mk
        (Pieces.mid_cnt (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _)
        (Pieces.mid_sq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _))).trans ?_
    rw [Payload.pay7_eq, Payload.pay8_eq, Payload.pay19_eq]
    rfl

/-- A core's last chunk: the output block holds, at every cell, the partial loss of the accumulators as this point
    leaves them. -/
theorem out_last (c : Dev nD) (t : Fin cfg0.N) (h1 : t.val % 16 = 15) :
    (outsAt0 m c t.val t.isLt).1 = fun _ => lossOf (iblk m c 2 t) (outsAt0 m c t.val t.isLt).2.1
      (outsAt0 m c t.val t.isLt).2.2.1 (outsAt0 m c t.val t.isLt).2.2.2 := by
  have h0 : ¬t.val % 16 = 0 := by omega
  rw [outsAt0_C m c t h0 h1]
  dsimp only
  refine (Pieces.last_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _).trans ?_
  rw [Payload.pay2_eq]
  rw [Pieces.last_G (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _,
    Pieces.last_cnt (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _,
    Pieces.last_sq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _]

/-! ## The closed form -/

/-- The sums over chunks 16 q .. 16 q + j of the chunks' contributions. -/
def part (X : SX.Idx → EReal) (L : SL1.Idx → BitVec 32) (q j : ℕ) : St :=
  (fun y => ∑ s ∈ Finset.range (j + 1), gAdd (xChunk X (16 * q + s)) (lChunk L (16 * q + s)) y,
   fun y => ∑ s ∈ Finset.range (j + 1), cAdd (lChunk L (16 * q + s)) y,
   fun _ => ∑ s ∈ Finset.range (j + 1), sAdd (xChunk X (16 * q + s)))

/-- One more chunk. -/
theorem part_succ (X : SX.Idx → EReal) (L : SL1.Idx → BitVec 32) (q j : ℕ) :
    part X L q (j + 1) = addChunk (xChunk X (16 * q + (j + 1))) (lChunk L (16 * q + (j + 1))) (part X L q j) := by
  unfold part addChunk
  simp only [Finset.sum_range_succ _ (j + 1)]

/-- The first chunk alone. -/
theorem part_zero (X : SX.Idx → EReal) (L : SL1.Idx → BitVec 32) (q : ℕ) :
    part X L q 0 = addChunk (xChunk X (16 * q)) (lChunk L (16 * q)) zeroSt := by
  unfold part addChunk zeroSt
  simp only [Finset.sum_range_one, Nat.add_zero, zero_add]

/-- After point n the accumulators hold core n / 16's sums over its chunks up to n. -/
theorem acc_eq (c : Dev nD) : ∀ (n : ℕ) (h : n < cfg0.N),
    (outsAt0 m c n h).2 = part (Blocks.Xarr m c) (Blocks.Larr m c) (n / 16) (n % 16) := by
  intro n
  induction n with
  | zero =>
    intro h
    have e := acc_first m c ⟨0, h⟩ (Nat.zero_mod 16)
    rw [show (0 : ℕ) / 16 = 0 from rfl, show (0 : ℕ) % 16 = 0 from rfl, part_zero]
    refine e.trans ?_
    rw [Blocks.xblk_eq, Blocks.lblk_eq]
  | succ n ih =>
    intro h
    have hN : n + 1 < 32 := lt_of_lt_of_eq h Blocks.N32
    by_cases h0 : (n + 1) % 16 = 0
    · have e := acc_first m c ⟨n + 1, h⟩ h0
      have e1 : 16 * ((n + 1) / 16) = n + 1 := by omega
      rw [h0, part_zero, e1]
      refine e.trans ?_
      rw [Blocks.xblk_eq, Blocks.lblk_eq]
    · have e := acc_next m c ⟨n + 1, h⟩ h0
      have e1 : (n + 1) / 16 = n / 16 := by omega
      have e2 : (n + 1) % 16 = n % 16 + 1 := by omega
      have e3 : 16 * (n / 16) + (n % 16 + 1) = n + 1 := by omega
      rw [e1, e2, part_succ, e3, ← ih (Nat.lt_of_succ_lt h)]
      refine e.trans ?_
      rw [Blocks.xblk_eq, Blocks.lblk_eq]
      rfl

/-- At a core's last chunk the block written back holds the core's partial loss at every cell. -/
theorem out_core (c : Dev nD) (t : Fin cfg0.N) (h1 : t.val % 16 = 15) :
    (outsAt0 m c t.val t.isLt).1 = fun _ => coreLoss (Blocks.Xarr m c) (Blocks.Larr m c) (Blocks.Carr m c) (t.val / 16) := by
  rw [out_last m c t h1]
  have e := acc_eq m c t.val t.isLt
  rw [h1] at e
  rw [e, Blocks.cblk_eq]
  unfold part coreLoss gCore cCore sCore
  dsimp only
  simp only [Finset.sum_range]

end Cert.CenterLoss.Invariant

end
-- ==== Proof.Final.lean ====
/-
  The kernel's result. The output array has 16 rows of 128; core q's last chunk writes its partial loss into every cell of
  rows 8 q .. 8 q + 7, and nothing else is written back, so the two write-backs cover the array. After the region the
  host adds cell (0, 0) and cell (8, 0) to a zero start: the two cores' partial losses.
-/
import proofs.«416194_j48979807044131_3_alg».proof.Proof.Gen.KernelIdeal.Frame
import proofs.«416194_j48979807044131_3_alg».proof.Proof.Spec
import proofs.«416194_j48979807044131_3_alg».proof.Proof.Blocks
import proofs.«416194_j48979807044131_3_alg».proof.Proof.Invariant
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.CenterLoss.Final

open Idealize.ShloMosaic Idealize.ShloMosaic.TcCoe Idealize.SL.Sem Idealize.ShloMosaic.ValueIdx
open Idealize.ShloMosaic.Pipeline (Dat)
open Cert.KernelIdeal Cert.KernelIdeal.Gen Cert.CenterLoss Cert.CenterLoss.Blocks

variable (m : (ℓ : Loc nD τ sig) → Buf (Elt Ideal) ℓ) (ρ : Dev nD → PrngReg)

/-- The output array after the region: row p holds the partial loss of core p / 8. -/
def outArr (c : Dev nD) : S16x128.Idx → EReal :=
  fun y => coreLoss (Xarr m c) (Larr m c) (Carr m c) ((y 0).val / 8)

/-- Where the output window's block sits at point t: block row t / 16, the one block column. -/
theorem idx3 : ∀ t : Fin cfg0.N, win0_3.index t 0 = t.val / 16 ∧ win0_3.index t 1 = 0 :=
  (by decide +kernel : ∀ t : Fin grid0.N, _)

/-- What a write-back writes is its block of the output array. -/
theorem flushed_eq (c : Dev nD) (t : Fin cfg0.N) (hf : (cfg0.win 3).flush t = true) :
    (dats m 0 c).flushed 3 t = ((cfg0.win 3).blk t).view.read (Elt Ideal) (outArr m c) := by
  have h15 : t.val % 16 = 15 := (flush0_3 t).mp hf
  show (cfg0.win 3).cut (grid0.coords t) ((dats m 0 c).after 3 t) = _
  rw [after0_3, Invariant.out_core m c t h15]
  funext j
  have hj : (j 0).val < 8 := (j 0).isLt
  show coreLoss (Xarr m c) (Larr m c) (Carr m c) (t.val / 16) = outArr m c (((cfg0.win 3).blk t).view.emb j)
  unfold outArr
  have e : ((((cfg0.win 3).blk t).view.emb j) 0).val = win0_3.index t 0 * 8 + 1 * (j 0).val := rfl
  rw [e, (idx3 t).1]
  congr 1
  omega

/-- An index of the output array is in point t's block iff each coordinate is in the block's range on its axis. -/
theorem mem_blk3 (t : Fin cfg0.N) (i : S16x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v3).slice (win0_3.rect t)).set ↔ _
  rw [View.set_slice_whole, Rect.mem_set_unit]
  exact Iff.rfl

/-- Every cell is in the block some core's last chunk writes back: row p in that of core p / 8. -/
theorem cover3 (i : S16x128.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hlt : 16 * ((i 0).val / 8) + 15 < cfg0.N := by rw [N32]; omega
  obtain ⟨e0, e1⟩ := idx3 ⟨16 * ((i 0).val / 8) + 15, hlt⟩
  have e0' : win0_3.index ⟨16 * ((i 0).val / 8) + 15, hlt⟩ 0 = (i 0).val / 8 := by rw [e0]; dsimp only; omega
  refine ⟨⟨16 * ((i 0).val / 8) + 15, hlt⟩, (flush0_3 _).mpr (by dsimp only; omega), ?_⟩
  rw [mem_blk3]
  intro a
  match a with
  | ⟨0, _⟩ =>
    show win0_3.index ⟨16 * ((i 0).val / 8) + 15, hlt⟩ 0 * 8 ≤ (i 0).val
      ∧ (i 0).val < win0_3.index ⟨16 * ((i 0).val / 8) + 15, hlt⟩ 0 * 8 + 8
    rw [e0']; omega
  | ⟨1, _⟩ =>
    show win0_3.index ⟨16 * ((i 0).val / 8) + 15, hlt⟩ 1 * 128 ≤ (i 1).val
      ∧ (i 1).val < win0_3.index ⟨16 * ((i 0).val / 8) + 15, hlt⟩ 1 * 128 + 128
    rw [e1]; omega

/-- So after the region the output array holds, in every cell of row p, core p / 8's partial loss. -/
theorem final3 (c : Dev nD) : (dats m 0 c).arrAt 3 cfg0.N = outArr m c :=
  (dats m 0 c).arrAt_eq_of_cover 3 (outArr m c) (flushed_eq m c) cover3

/-- The host lines after the region: a zero start plus cell (0, 0) plus cell (8, 0) of the output array. -/
theorem tail_eq (c : Dev nD) :
    (Pipeline.afterTail₀ cfgs (dats m) 0 (V0 m) [hostOps1] c main_v9 : S_.Idx → EReal)
      = fun _ => kernelLoss (Xarr m c) (Larr m c) (Carr m c) := by
  have hout : Pipeline.withArrays (cfgs 0).spec c (V0 m c) (fun w => (dats m 0 c).arrAt w (cfgs 0).N)
      (Proc.devRef .tc main_v3) = outArr m c :=
    (Pipeline.withArrays_arr spec0 launch0.win.arr_inj c _ _ 3).trans (final3 m c)
  unfold Pipeline.afterTail₀
  simp only [List.flatten_cons, List.flatten_nil, List.append_nil]
  after_results
  rw [hout]
  funext i
  show Ideal.ofBits .f32 0x00000000#32
        + shapeCast S_ (extractStridedSlice S1x1 ![0, 0] (outArr m c) Facts₀.slices_S16x128_S1x1_0_0) Facts₀.shapeCasts_S1x1_S_ i
      + shapeCast S_ (extractStridedSlice S1x1 ![8, 0] (outArr m c) Facts₀.slices_S16x128_S1x1_8_0) Facts₀.shapeCasts_S1x1_S_ i
    = kernelLoss (Xarr m c) (Larr m c) (Carr m c)
  rw [shapeCast_apply _ _ i (ix2 (0 : Fin 1) (0 : Fin 1)) (by rw [Shape.rowMajor_val_two]; exact (Shape.rowMajorPi_zero _ i).symm ▸ rfl),
    shapeCast_apply _ _ i (ix2 (0 : Fin 1) (0 : Fin 1)) (by rw [Shape.rowMajor_val_two]; exact (Shape.rowMajorPi_zero _ i).symm ▸ rfl),
    extractStridedSlice_apply _ _ _ (ix2 (0 : Fin 1) (0 : Fin 1)) (ix2 (0 : Fin 16) (0 : Fin 128))
      (fun a => by match a with | ⟨0, _⟩ => rfl | ⟨1, _⟩ => rfl),
    extractStridedSlice_apply _ _ _ (ix2 (0 : Fin 1) (0 : Fin 1)) (ix2 (8 : Fin 16) (0 : Fin 128))
      (fun a => by match a with | ⟨0, _⟩ => rfl | ⟨1, _⟩ => rfl),
    Ideal.ofBits_zero_f32, zero_add]
  rfl

/-- The kernel's run: it ends with its result at the two cores' partial losses added, the arguments unchanged. -/
theorem run : θ_run defs (onTc (τ := τ) (main (F := Ideal))) ⟨m, fun _ => 0, ρ⟩ fun r => ∀ c : Dev nD,
      r.2.mem ((c.tc : Thread nD τ).loc main_v9) = (fun _ => kernelLoss (Xarr m c) (Larr m c) (Carr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v9 (Pipeline.mem_restRefs_of main_v9 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.CenterLoss.Final

end
-- ==== Proof.lean ====
/-
  The center loss, two ways. The reference gathers each row's center and sums the squared differences over all rows and
  features. The kernel splits the rows between two cores, accumulates per core the class-wise feature sums, the class
  counts and the sum of squares, forms each core's partial loss from those and the centers, and adds the two.
  Under the precondition (every feature and every center a real number, no label negative) the kernel's clamp of a label
  into [0, 511] and the reference's clamped gather index are the same class, and expanding the square shows the two
  numbers equal. The kernel's only rewritten window narrows a zero-or-one matrix to a shorter float format and widens it
  back, which is the identity on the ideal values.
-/
import proofs.«416194_j48979807044131_3_alg».proof.Defs
import proofs.«416194_j48979807044131_3_alg».proof.Proof.Gen.Kernel
import proofs.«416194_j48979807044131_3_alg».proof.Proof.Gen.Kernel.Skeleton
import proofs.«416194_j48979807044131_3_alg».proof.Proof.Gen.Kernel.Launch
import proofs.«416194_j48979807044131_3_alg».proof.Proof.Gen.Kernel.Points
import proofs.«416194_j48979807044131_3_alg».proof.Proof.Gen.Kernel.Frame
import proofs.«416194_j48979807044131_3_alg».proof.Proof.Gen.KernelIdeal
import proofs.«416194_j48979807044131_3_alg».proof.Proof.Gen.KernelIdeal.Skeleton
import proofs.«416194_j48979807044131_3_alg».proof.Proof.Gen.KernelIdeal.Launch
import proofs.«416194_j48979807044131_3_alg».proof.Proof.Gen.KernelIdeal.Points
import proofs.«416194_j48979807044131_3_alg».proof.Proof.Gen.KernelIdeal.Frame
import proofs.«416194_j48979807044131_3_alg».proof.Proof.Gen.ReferenceIdeal
import proofs.«416194_j48979807044131_3_alg».proof.Proof.Gen.ReferenceIdeal.Run
import proofs.«416194_j48979807044131_3_alg».proof.Proof.Gen.ReferenceIdeal.Read
import proofs.«416194_j48979807044131_3_alg».proof.Proof.Gen.Pre_finite_inputs
import proofs.«416194_j48979807044131_3_alg».proof.Proof.Spec
import proofs.«416194_j48979807044131_3_alg».proof.Proof.Labels
import proofs.«416194_j48979807044131_3_alg».proof.Proof.Pre
import proofs.«416194_j48979807044131_3_alg».proof.Proof.Ref
import proofs.«416194_j48979807044131_3_alg».proof.Proof.Bridge
import proofs.«416194_j48979807044131_3_alg».proof.Proof.Blocks
import proofs.«416194_j48979807044131_3_alg».proof.Proof.Final
import Idealize.ShloMosaic.Adequacy
import Idealize.ShloMosaic.Init

noncomputable section

namespace Cert.Proof

open Idealize.ShloMosaic Idealize.SL.Sem Idealize.ShloMosaic.ValueIdx Cert.CenterLoss

/-- The kernel as printed runs and leaves its arguments as they were. -/
theorem frame_k : Cert.frame_Kernel := fun m ρ _ => Cert.Kernel.Gen.frame m ρ

/-- The idealized kernel runs and leaves its arguments as they were. -/
theorem frame_ki : Cert.frame_KernelIdeal := fun m ρ _ => Cert.KernelIdeal.Gen.frame m ρ

/-- The idealized reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing to the shorter float format and widening back is the identity on the ideal values, and is the rounding
    through that format on words. -/
theorem preserves : Cert.preserves_Kernel_KernelIdeal :=
  IdealRules.truncf_extf.statement Cert.KernelIdeal.S2048x512 .f32 .bf16

/-- Both idealized programs end with the same number: the kernel with the two cores' partial losses added, the
    reference with the sum of squared differences to each row's center, for the class map "label, capped at 511". -/
theorem algebraic : Cert.algebraic_KernelIdeal_ReferenceIdeal := by
  intro m ρ m' ρ' hpre hagree
  refine ⟨fun c => (fun _ => kernelLoss (Blocks.Xarr m c) (Blocks.Larr m c) (Blocks.Carr m c)), Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v9_eq]
  obtain ⟨⟨x, hx⟩, ⟨cc, hcc⟩, hL⟩ := of_pre _ _ _ (hpre c)
  rw [RefSide.ref_value _ _ _ hL]
  beta_reduce
  rw [Blocks.Xarr_eq, Blocks.Carr_eq, hx, hcc]
  funext _
  exact (kernelLoss_eq_refLoss x cc (Blocks.Larr m c) _
    (fun i => (Blocks.Larr_apply m c i).trans (clip_eq _ (hL i)))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
